-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x4096 .f32) (main_arg5 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S1024x4096 .f32) (main_arg4 : FVec F S1024x4096 .f32) (main_arg5 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_v13 main_v16
-- ==== Kernel.lean ====
abbrev S4096x1024 : Shape := ⟨2, ![4096, 1024]⟩
abbrev S1024x4096 : Shape := ⟨2, ![1024, 4096]⟩
abbrev S4096 : Shape := ⟨1, ![4096]⟩
abbrev S2048x4096 : Shape := ⟨2, ![2048, 4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S1024x4096, .bf16⟩
  | .hbm, ⟨7, _⟩ => ⟨S1024x4096, .bf16⟩
  | .hbm, ⟨8, _⟩ => ⟨S2048x4096, .bf16⟩
  | .hbm, ⟨9, _⟩ => ⟨S1x4096, .f32⟩
  | .hbm, ⟨10, _⟩ => ⟨S4096x1024, .f32⟩
  | .hbm, ⟨11, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  concatenates_S1024x4096_S1024x4096_S2048x4096_d0 : Shape.Concatenates [S1024x4096, S1024x4096] S2048x4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.GateValue.lean ====
/-
  The kernel's fused pre-activation, read at an index, at the ideal values.

  One grid point multiplies the 256 × 2048 block `[x | h]` (the point's rows of `x` and of `h` side by side) by the
  2048 × 4096 weight block into a zero accumulator and adds the bias row.  At row `p` and column `n` that is a sum over
  the 2048 contracted positions; the first 1024 read `x` and the last 1024 read `h`, so the sum splits in two.
  Changes of float format are the identity on the extended reals.
-/
import proofs.«406632_j43181601194439_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.Lstm.Kern

open Cert.KernelIdeal Cert.KernelIdeal.Gen Idealize.ShloMosaic Idealize.ShloMosaic.ValueIdx
/-- A sum over 2048 positions is the sum over the first 1024 plus the sum over the last 1024. -/
theorem sum_halves (f : Fin 2048 → EReal) :
    ∑ k : Fin 2048, f k
      = ∑ k : Fin 1024, f ⟨k.val, by omega⟩ + ∑ k : Fin 1024, f ⟨k.val + 1024, by omega⟩ := by
  have e := Fin.sum_univ_add (a := 1024) (b := 1024) (f := f)
  rw [e]
  congr 1
  all_goals first
    | rfl
    | (refine Finset.sum_congr rfl fun k _ => congrArg f (Fin.ext ?_)
       show 1024 + k.val = k.val + 1024
       omega)

/-- Position `k` of the first half of the contracted axis. -/
abbrev lo (k : Fin 1024) : Fin 2048 := ⟨k.val, by omega⟩
/-- Position `k` of the second half of the contracted axis. -/
abbrev hi (k : Fin 1024) : Fin 2048 := ⟨k.val + 1024, by omega⟩

variable (P0 P1 : S256x1024.Idx → EReal) (P2 : S2048x4096.Idx → EReal) (P3 : S1x4096.Idx → EReal)

/-- The concatenated block `[x | h]` at a position of its first half reads `x`. -/
theorem cat_lo (p : Fin 256) (k : Fin 1024) :
    concatenate S256x2048 1 [⟨S256x1024, truncf (F := Ideal) .bf16 (φ := .f32) P0 bitsLt_bf16_f32⟩, ⟨S256x1024, truncf (F := Ideal) .bf16 (φ := .f32) P1 bitsLt_bf16_f32⟩]
        concatenates_S256x1024_S256x1024_S256x2048_d1 (ix2 p (lo k)) = P0 (ix2 p k) :=
  concatenate_pair_apply_left (t := S256x2048) (s₁ := S256x1024) (s₂ := S256x1024) (1 : Fin 2) _ _ concatenates_S256x1024_S256x1024_S256x2048_d1 (ix2 p (lo k) : S256x2048.Idx) rfl (ix2 p k : S256x1024.Idx)
    (fun b => by match b with | ⟨0, _⟩ => rfl | ⟨1, _⟩ => rfl)

/-- The concatenated block `[x | h]` at a position of its second half reads `h`. -/
theorem cat_hi (p : Fin 256) (k : Fin 1024) :
    concatenate S256x2048 1 [⟨S256x1024, truncf (F := Ideal) .bf16 (φ := .f32) P0 bitsLt_bf16_f32⟩, ⟨S256x1024, truncf (F := Ideal) .bf16 (φ := .f32) P1 bitsLt_bf16_f32⟩]
        concatenates_S256x1024_S256x1024_S256x2048_d1 (ix2 p (hi k)) = P1 (ix2 p k) :=
  concatenate_pair_apply_right (t := S256x2048) (s₁ := S256x1024) (s₂ := S256x1024) (1 : Fin 2) _ _ concatenates_S256x1024_S256x1024_S256x2048_d1 (ix2 p (hi k) : S256x2048.Idx) rfl rfl (ix2 p k : S256x1024.Idx)
    (fun b hb => by match b with | ⟨0, _⟩ => rfl | ⟨1, _⟩ => exact absurd rfl hb)
    rfl

/-- The bias row broadcast down the block, at a column. -/
theorem bias_apply (p : Fin 256) (n : Fin 4096) :
    broadcastTo S256x4096 (shapeCast S1x4096 P3 shapeCasts_S1x4096_S1x4096) broadcasts_S1x4096_S256x4096 (ix2 p n)
      = P3 (ix2 (0 : Fin 1) n) := by
  rw [shapeCast_self]
  refine broadcastTo_apply P3 broadcasts_S1x4096_S256x4096 (ix2 p n) (ix2 (0 : Fin 1) n) fun a => ?_
  match a with
  | ⟨0, _⟩ => show (0 : Nat) = if (1 : Nat) = 1 then 0 else _; rw [if_pos rfl]
  | ⟨1, _⟩ => show n.val = if (4096 : Nat) = 1 then 0 else n.val; rw [if_neg (by decide)]

theorem lhs_axis0 (i : S256x4096.Idx) (q : dot_S256x2048_S2048x4096_S256x4096_1_0_0_1_n_n.contr.Idx) :
    (dot_S256x2048_S2048x4096_S256x4096_1_0_0_1_n_n.lhsIdx i q 0).val = (i 0).val := by
  unfold DotDims.lhsIdx
  rw [dif_neg (show ¬(0 : Fin S256x2048.rank) ∈ dot_S256x2048_S2048x4096_S256x4096_1_0_0_1_n_n.lhsBatch by decide), dif_pos (show (0 : Fin S256x2048.rank) ∈ dot_S256x2048_S2048x4096_S256x4096_1_0_0_1_n_n.lhsNonContracting by decide)]
  rfl
theorem lhs_axis1 (i : S256x4096.Idx) (q : dot_S256x2048_S2048x4096_S256x4096_1_0_0_1_n_n.contr.Idx) :
    (dot_S256x2048_S2048x4096_S256x4096_1_0_0_1_n_n.lhsIdx i q 1).val = (q ⟨0, by decide⟩).val :=
  dot_S256x2048_S2048x4096_S256x4096_1_0_0_1_n_n.lhsIdx_val_of_single rfl i q
theorem rhs_axis0 (i : S256x4096.Idx) (q : dot_S256x2048_S2048x4096_S256x4096_1_0_0_1_n_n.contr.Idx) :
    (dot_S256x2048_S2048x4096_S256x4096_1_0_0_1_n_n.rhsIdx i q 0).val = (q ⟨0, by decide⟩).val :=
  dot_S256x2048_S2048x4096_S256x4096_1_0_0_1_n_n.rhsIdx_val_of_single rfl i q
theorem rhs_axis1 (i : S256x4096.Idx) (q : dot_S256x2048_S2048x4096_S256x4096_1_0_0_1_n_n.contr.Idx) :
    (dot_S256x2048_S2048x4096_S256x4096_1_0_0_1_n_n.rhsIdx i q 1).val = (i 1).val := by
  unfold DotDims.rhsIdx
  rw [dif_neg (show ¬(1 : Fin S2048x4096.rank) ∈ dot_S256x2048_S2048x4096_S256x4096_1_0_0_1_n_n.rhsBatch by decide), dif_pos (show (1 : Fin S2048x4096.rank) ∈ dot_S256x2048_S2048x4096_S256x4096_1_0_0_1_n_n.rhsNonContracting by decide)]
  rfl

/-- The block product into a zero accumulator, at row `p` and column `n`: the sum over all 2048 positions. -/
theorem prod_apply (L : S256x2048.Idx → EReal) (p : Fin 256) (n : Fin 4096) :
    matmul (F := Ideal) (φ₁ := .bf16) (φ₂ := .bf16) dot_S256x2048_S2048x4096_S256x4096_1_0_0_1_n_n none L P2 (constant S256x4096 .f32 0x00000000#32) (ix2 p n)
      = ∑ k : Fin 2048, L (ix2 p k) * P2 (ix2 k n) := by
  simp only [matmul]
  rw [Ideal.matmul_constant_zero_apply, ← Equiv.sum_comp (contrEquiv1 dot_S256x2048_S2048x4096_S256x4096_1_0_0_1_n_n 2048 rfl rfl).symm]
  refine Finset.sum_congr rfl fun k _ => ?_
  have hk := contrEquiv1_symm_val dot_S256x2048_S2048x4096_S256x4096_1_0_0_1_n_n 2048 rfl rfl k
  have el : dot_S256x2048_S2048x4096_S256x4096_1_0_0_1_n_n.lhsIdx (ix2 p n) ((contrEquiv1 dot_S256x2048_S2048x4096_S256x4096_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S256x2048_S2048x4096_S256x4096_1_0_0_1_n_n.rhsIdx (ix2 p n) ((contrEquiv1 dot_S256x2048_S2048x4096_S256x4096_1_0_0_1_n_n 2048 rfl rfl).symm k) = ix2 k n := funext fun a => Fin.ext (by
    match a with
    | ⟨0, _⟩ => exact (rhs_axis0 _ _).trans hk
    | ⟨1, _⟩ => exact rhs_axis1 _ _)
  rw [el, er]

/-- THE FUSED PRE-ACTIVATION of one grid point at row `p` and column `n`: the point's rows of `x` against the first 1024
    weight rows, plus its rows of `h` against the last 1024, plus the bias. -/
theorem gate_apply (p : Fin 256) (n : Fin 4096) :
    k0_pay2 (F := Ideal) P0 P1 P2 P3 (ix2 p n)
      = (∑ k : Fin 1024, P0 (ix2 p k) * P2 (ix2 (lo k) n) + ∑ k : Fin 1024, P1 (ix2 p k) * P2 (ix2 (hi k) n))
        + P3 (ix2 (0 : Fin 1) n) := by
  unfold k0_pay2
  show FloatOps.addf (matmul (F := Ideal) dot_S256x2048_S2048x4096_S256x4096_1_0_0_1_n_n none _ (shapeCast S2048x4096 P2 shapeCasts_S2048x4096_S2048x4096) (constant S256x4096 .f32 0x00000000#32) (ix2 p n))
    (broadcastTo S256x4096 (shapeCast S1x4096 P3 shapeCasts_S1x4096_S1x4096) broadcasts_S1x4096_S256x4096 (ix2 p n)) = _
  rw [bias_apply, shapeCast_self, prod_apply, sum_halves]
  simp only [cat_lo, cat_hi, Ideal.addf_def]

end Cert.Lstm.Kern

end
-- ==== Proof.Sigmoid.lean ====
/-
  The logistic function in its two spellings, on the extended reals.

  The kernel computes a gate's activation as `1/2 · (tanh (1/2 · z) + 1)`; the reference as
  `1 / (1 + e^(-z))`.  On the reals these are one function: with `a = e^(z/2)` and `b = e^(-z/2)`,
  `a · b = 1`, the first is `a / (a + b)` and the second `1 / (1 + b²)`, and
  `a · (1 + b²) = a + b`.  At the two infinities both spellings take the limits: `0` at `⊥`
  (`tanh ⊥ = -1`, `e^⊤ = ⊤` and `1 / ⊤ = 0`) and `1` at `⊤` (`tanh ⊤ = 1`, `e^⊥ = 0`).  So the identity
  holds at EVERY extended real, and nothing downstream needs the gates to be finite.
-/
import Idealize.ShloMosaic.PureOps.Ideal

noncomputable section

namespace Cert.Lstm

open Idealize.ShloMosaic

/-- The word `0x3F000000` is the float `0.5`: the real `1/2`. -/
theorem ofBits_half : Ideal.ofBits .f32 0x3F000000#32 = ((1 / 2 : ℝ) : EReal) := by
  simp [Ideal.ofBits, Ideal.ieee, -EReal.coe_mul]; norm_num

/-- The word `0x3F800000` is the float `1.0`: the real `1`. -/
theorem ofBits_one : Ideal.ofBits .f32 0x3F800000#32 = ((1 : ℝ) : EReal) := by
  simp [Ideal.ofBits, Ideal.ieee, -EReal.coe_mul]; norm_num

/-- On the reals, `1/2 · (tanh (z/2) + 1) = 1 / (1 + e^(-z))`. -/
theorem real_logistic (r : ℝ) : (1 / 2 : ℝ) * (Real.tanh (1 / 2 * r) + 1) = (1 + Real.exp (-r))⁻¹ := by
  have hb : Real.exp (-r) = Real.exp (-(1 / 2 * r)) * Real.exp (-(1 / 2 * r)) := by
    rw [← Real.exp_add]; congr 1; ring
  have hab : Real.exp (1 / 2 * r) * Real.exp (-(1 / 2 * r)) = 1 := by
    rw [← Real.exp_add]; simp
  have ha : 0 < Real.exp (1 / 2 * r) := Real.exp_pos _
  have hbp : 0 < Real.exp (-(1 / 2 * r)) := Real.exp_pos _
  rw [Real.tanh_eq_sinh_div_cosh, Real.sinh_eq, Real.cosh_eq, hb]
  generalize Real.exp (1 / 2 * r) = a at *
  generalize Real.exp (-(1 / 2 * r)) = b at *
  have hne : a + b ≠ 0 := by positivity
  have hne' : 1 + b * b ≠ 0 := by positivity
  rw [← one_div, eq_div_iff hne']
  field_simp
  linear_combination ((2 : ℝ) * b) * hab

/-- The kernel's spelling of the logistic function is the reference's, at every extended real. -/
theorem logistic_eq (z : EReal) :
    ((1 / 2 : ℝ) : EReal) * (Ideal.tanh (((1 / 2 : ℝ) : EReal) * z) + ((1 : ℝ) : EReal))
      = Ideal.div ((1 : ℝ) : EReal) (((1 : ℝ) : EReal) + Ideal.exp (-z)) := by
  have hpos : (0 : ℝ) < 1 / 2 := by norm_num
  show _ = Ideal.logistic z
  induction z using EReal.rec with
  | bot =>
    rw [EReal.coe_mul_bot_of_pos hpos, Ideal.tanh_bot, Ideal.logistic_bot, ← EReal.coe_one, ← EReal.coe_neg,
      ← EReal.coe_add, ← EReal.coe_mul]
    norm_num
  | coe r =>
    rw [← EReal.coe_mul, Ideal.tanh_coe, Ideal.logistic_coe, ← EReal.coe_add, ← EReal.coe_mul, real_logistic]
  | top =>
    rw [EReal.coe_mul_top_of_pos hpos, Ideal.tanh_top, Ideal.logistic_top, ← EReal.coe_one, ← EReal.coe_add,
      ← EReal.coe_mul]
    norm_num

end Cert.Lstm

end
-- ==== Proof.Spec.lean ====
/-
  The LSTM cell as ONE function of the argument arrays, index by index, on the extended reals.

  For a batch row `b` and a column `n` of the fused pre-activation,
      gate b n = (∑ k, x[b,k] · Wi[k,n] + ∑ k, h[b,k] · Wh[k,n]) + bias[n],
  the four gates being the four 1024-wide column bands of it (forget, input, candidate, output).  With the
  logistic function `σ z = 1 / (1 + e^(-z))`,
      c' [b,q] = σ (gate b q) · c[b,q] + σ (gate b (q + 1024)) · tanh (gate b (q + 2048)),
      h' [b,q] = σ (gate b (q + 3072)) · tanh (c' [b,q]).
  Both programs are shown to compute `h'` and `c'`.
-/
import Idealize.ShloMosaic.PureOps.Ideal
import Idealize.ShloMosaic.Lib.ValueIdx
import proofs.«406632_j43181601194439_3_alg».proof.Proof.Sigmoid

noncomputable section

namespace Cert.Lstm

open Idealize.ShloMosaic Idealize.ShloMosaic.ValueIdx

/-- The logistic function, as a quotient. -/
def sigm (z : EReal) : EReal := Ideal.div ((1 : ℝ) : EReal) (((1 : ℝ) : EReal) + Ideal.exp (-z))

/-- The new cell value from the forget, input and candidate pre-activations and the old cell value. -/
def cell (gf gi gc c : EReal) : EReal := sigm gf * c + sigm gi * Ideal.tanh gc

/-- The new hidden value from the output pre-activation and the new cell value. -/
def hid (go ct : EReal) : EReal := sigm go * Ideal.tanh ct

/-- The kernel's spelling of the cell update, with the logistic function through `tanh`, is `cell`. -/
theorem cell_of_tanh (gf gi gc c : EReal) :
    ((1 / 2 : ℝ) : EReal) * (Ideal.tanh (((1 / 2 : ℝ) : EReal) * gf) + ((1 : ℝ) : EReal)) * c
      + ((1 / 2 : ℝ) : EReal) * (Ideal.tanh (((1 / 2 : ℝ) : EReal) * gi) + ((1 : ℝ) : EReal)) * Ideal.tanh gc
      = cell gf gi gc c := by
  rw [logistic_eq, logistic_eq]; rfl

/-- The kernel's spelling of the hidden update is `hid`. -/
theorem hid_of_tanh (go ct : EReal) :
    ((1 / 2 : ℝ) : EReal) * (Ideal.tanh (((1 / 2 : ℝ) : EReal) * go) + ((1 : ℝ) : EReal)) * Ideal.tanh ct
      = hid go ct := by
  rw [logistic_eq]; rfl

/-- Column `q` of the band that starts at column `o` of the fused pre-activation. -/
def band (o : Nat) (ho : o + 1024 ≤ 4096) (q : Fin 1024) : Fin 4096 := ⟨q.val + o, by omega⟩

variable (x h c : (⟨2, ![4096, 1024]⟩ : Shape).Idx → EReal) (wi wh : (⟨2, ![1024, 4096]⟩ : Shape).Idx → EReal)
  (bias : (⟨1, ![4096]⟩ : Shape).Idx → EReal)

/-- The fused pre-activation at batch row `b` and column `n`. -/
def gate (b n : Fin 4096) : EReal :=
  (∑ k : Fin 1024, x (ix2 b k) * wi (ix2 k n) + ∑ k : Fin 1024, h (ix2 b k) * wh (ix2 k n)) + bias (ix1 n)

/-- The new cell array. -/
def cT : (⟨2, ![4096, 1024]⟩ : Shape).Idx → EReal := fun i =>
  cell (gate x h wi wh bias (i 0) (band 0 (by omega) (i 1))) (gate x h wi wh bias (i 0) (band 1024 (by omega) (i 1)))
    (gate x h wi wh bias (i 0) (band 2048 (by omega) (i 1))) (c i)

/-- The new hidden array. -/
def hT : (⟨2, ![4096, 1024]⟩ : Shape).Idx → EReal := fun i =>
  hid (gate x h wi wh bias (i 0) (band 3072 (by omega) (i 1))) (cT x h c wi wh bias i)

end Cert.Lstm

end
-- ==== Proof.KernelValue.lean ====
/-
  The kernel computes the LSTM cell of Spec.lean.

  Grid point `t` of 16 works on batch rows `256 t … 256 t + 255`: its blocks of `x`, `h` and `c` are those rows of the
  arrays, its weight block is the whole 2048 × 4096 array `[Wi ; Wh]` that the host laid out before the launch (rows
  `0 … 1023` are `Wi`, rows `1024 … 2047` are `Wh`), and its bias block is the bias vector as one row.  So the point's
  fused pre-activation at row `p`, column `n` (GateValue.lean) is `gate` at batch row `256 t + p`, and what it stores —
  `1/2 · (tanh (z/2) + 1)` on three bands, `tanh` on the fourth, the products and sums — is `cT` and `hT` on its rows
  (the logistic identity of Sigmoid.lean).  The 16 blocks of each output tile its array.
-/
import proofs.«406632_j43181601194439_3_alg».proof.Proof.Gen.KernelIdeal.Value
import proofs.«406632_j43181601194439_3_alg».proof.Proof.GateValue
import proofs.«406632_j43181601194439_3_alg».proof.Proof.Spec
import Idealize.ShloMosaic.Lib.Pipeline.Value
import Idealize.ShloMosaic.Lib.ValueIdx
import Idealize.ShloMosaic.Lib.StableHlo.Run
import Idealize.ShloMosaic.Lib.Tactic

noncomputable section

namespace Cert.Lstm.Kern

open Cert.KernelIdeal Cert.KernelIdeal.Gen Cert.KernelIdeal.Value Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-! ## The arrays and the blocks, at their literal types -/

abbrev xarr (c : Dev nD) : S4096x1024.Idx → EReal := m ((c : Thread nD τ).loc main_arg0)
abbrev harr (c : Dev nD) : S4096x1024.Idx → EReal := m ((c : Thread nD τ).loc main_arg1)
abbrev carr (c : Dev nD) : S4096x1024.Idx → EReal := m ((c : Thread nD τ).loc main_arg2)
abbrev wiarr (c : Dev nD) : S1024x4096.Idx → EReal := m ((c : Thread nD τ).loc main_arg3)
abbrev wharr (c : Dev nD) : S1024x4096.Idx → EReal := m ((c : Thread nD τ).loc main_arg4)
abbrev barr (c : Dev nD) : S4096.Idx → EReal := m ((c : Thread nD τ).loc main_arg5)

abbrev xblk (c : Dev nD) (t : Fin cfg0.N) : S256x1024.Idx → EReal := iblk m c 0 t
abbrev hblk (c : Dev nD) (t : Fin cfg0.N) : S256x1024.Idx → EReal := iblk m c 1 t
abbrev cblk (c : Dev nD) (t : Fin cfg0.N) : S256x1024.Idx → EReal := iblk m c 2 t
abbrev wblk (c : Dev nD) (t : Fin cfg0.N) : S2048x4096.Idx → EReal := iblk m c 3 t
abbrev bblk (c : Dev nD) (t : Fin cfg0.N) : S1x4096.Idx → EReal := iblk m c 4 t

/-- The grid has 16 points. -/
theorem tlt (t : Fin cfg0.N) : t.val < 16 := lt_of_lt_of_eq t.isLt N_0

/-- Batch row `256 t + p`: row `p` of point `t`'s blocks. -/
abbrev row (t : Fin cfg0.N) (p : Fin 256) : Fin 4096 := ⟨256 * t.val + p.val, by have := tlt t; omega⟩

/-- The printed index maps, decided over the grid: the batch-tiled windows are at block `(t, 0)`, the weight and bias
    windows at block `(0, 0)`. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## Each input block as a part of its array -/

theorem xblk_apply (c : Dev nD) (t : Fin cfg0.N) (p : Fin 256) (k : Fin 1024) :
    xblk m c t (ix2 p k) = xarr m c (ix2 (row t p) k) := by
  obtain ⟨e0, e1, -⟩ := idx_rows t
  show iblk m c 0 t _ = _
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * p.val = 256 * t.val + p.val; rw [e0]; omega
  | ⟨1, _⟩ => show win0_0.index t 1 * 1024 + 1 * k.val = k.val; rw [e1]; omega

theorem hblk_apply (c : Dev nD) (t : Fin cfg0.N) (p : Fin 256) (k : Fin 1024) :
    hblk m c t (ix2 p k) = harr m c (ix2 (row t p) k) := by
  obtain ⟨-, -, e0, e1, -⟩ := idx_rows t
  show iblk m c 1 t _ = _
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * p.val = 256 * t.val + p.val; rw [e0]; omega
  | ⟨1, _⟩ => show win0_1.index t 1 * 1024 + 1 * k.val = k.val; rw [e1]; omega

theorem cblk_apply (c : Dev nD) (t : Fin cfg0.N) (p : Fin 256) (k : Fin 1024) :
    cblk m c t (ix2 p k) = carr m c (ix2 (row t p) k) := by
  obtain ⟨-, -, -, -, e0, e1, -⟩ := idx_rows t
  show iblk m c 2 t _ = _
  unfold iblk
  rw [View.read_apply]
  show V m c main_arg2 _ = m (c.tc.loc main_arg2) _
  rw [V_main_arg2]
  congr 1
  funext a
  apply Fin.ext
  match a with
  | ⟨0, _⟩ => show win0_2.index t 0 * 256 + 1 * p.val = 256 * t.val + p.val; rw [e0]; omega
  | ⟨1, _⟩ => show win0_2.index t 1 * 1024 + 1 * k.val = k.val; rw [e1]; omega

/-- The weight array the region finds: `Wi` stacked on `Wh`. -/
theorem wts_eq (c : Dev nD) : (V m c main_v2 : S2048x4096.Idx → EReal)
    = concatenate S2048x4096 0 [⟨S1024x4096, truncf (F := Ideal) .bf16 (φ := .f32) (m ((c : Thread nD τ).loc main_arg3)) bitsLt_bf16_f32⟩, ⟨S1024x4096, truncf (F := Ideal) .bf16 (φ := .f32) (m ((c : Thread nD τ).loc main_arg4)) bitsLt_bf16_f32⟩] concatenates_S1024x4096_S1024x4096_S2048x4096_d0 := by
  dsimp only [V, hostOps0]
  after_results

/-- The bias array the region finds: the bias vector as one row. -/
theorem bias_eq (c : Dev nD) : (V m c main_v3 : S1x4096.Idx → EReal)
    = shapeCast S1x4096 (m ((c : Thread nD τ).loc main_arg5) : S4096.Idx → EReal) shapeCasts_S4096_S1x4096 := by
  dsimp only [V, hostOps0]
  after_results
  rfl

/-- The weight window's one block is the whole array. -/
theorem wblk_apply (c : Dev nD) (t : Fin cfg0.N) (j : S2048x4096.Idx) :
    wblk m c t j = (V m c main_v2 : S2048x4096.Idx → EReal) j := by
  obtain ⟨-, -, -, -, -, -, e0, e1, -⟩ := idx_rows t
  show iblk m c 3 t _ = _
  unfold iblk
  rw [View.read_apply]
  show V m c main_v2 _ = V m c main_v2 _
  congr 1
  funext a
  apply Fin.ext
  match a with
  | ⟨0, _⟩ => show win0_3.index t 0 * 2048 + 1 * (j 0).val = (j 0).val; rw [e0]; omega
  | ⟨1, _⟩ => show win0_3.index t 1 * 4096 + 1 * (j 1).val = (j 1).val; rw [e1]; omega

/-- The bias window's one block is the whole row. -/
theorem bblk_whole (c : Dev nD) (t : Fin cfg0.N) (j : S1x4096.Idx) :
    bblk m c t j = (V m c main_v3 : S1x4096.Idx → EReal) j := by
  obtain ⟨-, -, -, -, -, -, -, -, e0, e1, -⟩ := idx_rows t
  show iblk m c 4 t _ = _
  unfold iblk
  rw [View.read_apply]
  show V m c main_v3 _ = V m c main_v3 _
  congr 1
  funext a
  apply Fin.ext
  match a with
  | ⟨0, _⟩ => show win0_4.index t 0 * 1 + 1 * (j 0).val = (j 0).val; rw [e0]; omega
  | ⟨1, _⟩ => show win0_4.index t 1 * 4096 + 1 * (j 1).val = (j 1).val; rw [e1]; omega

/-- Rows `0 … 1023` of the weight block are `Wi`. -/
theorem wblk_lo (c : Dev nD) (t : Fin cfg0.N) (k : Fin 1024) (n : Fin 4096) :
    wblk m c t (ix2 (lo k) n) = wiarr m c (ix2 k n) := by
  rw [wblk_apply, wts_eq]
  exact concatenate_pair_apply_left (t := S2048x4096) (s₁ := S1024x4096) (s₂ := S1024x4096) (0 : Fin 2) _ _
    concatenates_S1024x4096_S1024x4096_S2048x4096_d0 (ix2 (lo k) n : S2048x4096.Idx) rfl (ix2 k n : S1024x4096.Idx)
    (fun b => by match b with | ⟨0, _⟩ => rfl | ⟨1, _⟩ => rfl)

/-- Rows `1024 … 2047` of the weight block are `Wh`. -/
theorem wblk_hi (c : Dev nD) (t : Fin cfg0.N) (k : Fin 1024) (n : Fin 4096) :
    wblk m c t (ix2 (hi k) n) = wharr m c (ix2 k n) := by
  rw [wblk_apply, wts_eq]
  exact concatenate_pair_apply_right (t := S2048x4096) (s₁ := S1024x4096) (s₂ := S1024x4096) (0 : Fin 2) _ _
    concatenates_S1024x4096_S1024x4096_S2048x4096_d0 (ix2 (hi k) n : S2048x4096.Idx) rfl rfl (ix2 k n : S1024x4096.Idx)
    (fun b hb => by match b with | ⟨0, _⟩ => exact absurd rfl hb | ⟨1, _⟩ => rfl)
    rfl

/-- The bias block at a column is the bias vector there. -/
theorem bblk_apply (c : Dev nD) (t : Fin cfg0.N) (n : Fin 4096) :
    bblk m c t (ix2 (0 : Fin 1) n) = barr m c (ix1 n) := by
  rw [bblk_whole, bias_eq]
  refine shapeCast_apply _ shapeCasts_S4096_S1x4096 (ix2 (0 : Fin 1) n : S1x4096.Idx) (ix1 n : S4096.Idx) ?_
  rw [Shape.rowMajor_val_one, Shape.rowMajor_val_two]
  show n.val = 0 * 4096 + n.val
  omega

/-! ## One point's values are the cell's, on its rows -/

/-- Point `t`'s fused pre-activation at row `p` is `gate` at batch row `256 t + p`. -/
theorem gate_blk (c : Dev nD) (t : Fin cfg0.N) (p : Fin 256) (n : Fin 4096) :
    k0_pay2 (F := Ideal) (xblk m c t) (hblk m c t) (wblk m c t) (bblk m c t) (ix2 p n)
      = gate (xarr m c) (harr m c) (wiarr m c) (wharr m c) (barr m c) (row t p) n := by
  rw [gate_apply]
  unfold gate
  simp only [xblk_apply, hblk_apply, wblk_lo, wblk_hi, bblk_apply]

/-- What point `t` leaves in its block of the cell output is `cT` on its rows. -/
theorem cell_blk (c : Dev nD) (t : Fin cfg0.N) (p : Fin 256) (q : Fin 1024) :
    E6 (F := Ideal) (xblk m c t) (hblk m c t) (wblk m c t) (bblk m c t) (cblk m c t) (ix2 p q)
      = cT (xarr m c) (harr m c) (carr m c) (wiarr m c) (wharr m c) (barr m c) (ix2 (row t p) q) := by
  have i0 : ix6_0 (ix2 p q : S256x1024.Idx) = (ix2 p (band 0 (by omega) q) : S256x4096.Idx) :=
    funext fun a => by match a with | ⟨0, _⟩ => rfl | ⟨1, _⟩ => rfl
  have i1 : ix6_1 (ix2 p q : S256x1024.Idx) = (ix2 p q : S256x1024.Idx) :=
    funext fun a => by match a with | ⟨0, _⟩ => rfl | ⟨1, _⟩ => rfl
  have i2 : ix6_2 (ix2 p q : S256x1024.Idx) = (ix2 p (band 1024 (by omega) q) : S256x4096.Idx) :=
    funext fun a => by match a with | ⟨0, _⟩ => rfl | ⟨1, _⟩ => rfl
  have i3 : ix6_3 (ix2 p q : S256x1024.Idx) = (ix2 p (band 2048 (by omega) q) : S256x4096.Idx) :=
    funext fun a => by match a with | ⟨0, _⟩ => rfl | ⟨1, _⟩ => rfl
  show FloatOps.addf (FloatOps.mulf (FloatOps.mulf (Scalar.ofBits .f32 0x3F000000#32) (FloatOps.addf (FloatOps.tanh (FloatOps.mulf (Scalar.ofBits .f32 0x3F000000#32) (k0_pay2 (F := Ideal) (xblk m c t) (hblk m c t) (wblk m c t) (bblk m c t) (ix6_0 (ix2 p q))))) (Scalar.ofBits .f32 0x3F800000#32))) (cblk m c t (ix6_1 (ix2 p q))))
      (FloatOps.mulf (FloatOps.mulf (Scalar.ofBits .f32 0x3F000000#32) (FloatOps.addf (FloatOps.tanh (FloatOps.mulf (Scalar.ofBits .f32 0x3F000000#32) (k0_pay2 (F := Ideal) (xblk m c t) (hblk m c t) (wblk m c t) (bblk m c t) (ix6_2 (ix2 p q))))) (Scalar.ofBits .f32 0x3F800000#32))) (FloatOps.tanh (k0_pay2 (F := Ideal) (xblk m c t) (hblk m c t) (wblk m c t) (bblk m c t) (ix6_3 (ix2 p q))))) = _
  rw [i0, i1, i2, i3, gate_blk, gate_blk, gate_blk, cblk_apply]
  simp only [Ideal.addf_def, Ideal.mulf_def, Ideal.tanh_def, Ideal.ofBits_def, ofBits_half, ofBits_one]
  exact cell_of_tanh _ _ _ _

/-- What point `t` leaves in its block of the hidden output is `hT` on its rows. -/
theorem hid_blk (c : Dev nD) (t : Fin cfg0.N) (p : Fin 256) (q : Fin 1024) :
    E5 (F := Ideal) (xblk m c t) (hblk m c t) (wblk m c t) (bblk m c t) (cblk m c t) (ix2 p q)
      = hT (xarr m c) (harr m c) (carr m c) (wiarr m c) (wharr m c) (barr m c) (ix2 (row t p) q) := by
  have i0 : ix5_0 (ix2 p q : S256x1024.Idx) = (ix2 p (band 3072 (by omega) q) : S256x4096.Idx) :=
    funext fun a => by match a with | ⟨0, _⟩ => rfl | ⟨1, _⟩ => rfl
  have i1 : ix5_1 (ix2 p q : S256x1024.Idx) = (ix2 p (band 0 (by omega) q) : S256x4096.Idx) :=
    funext fun a => by match a with | ⟨0, _⟩ => rfl | ⟨1, _⟩ => rfl
  have i2 : ix5_2 (ix2 p q : S256x1024.Idx) = (ix2 p q : S256x1024.Idx) :=
    funext fun a => by match a with | ⟨0, _⟩ => rfl | ⟨1, _⟩ => rfl
  have i3 : ix5_3 (ix2 p q : S256x1024.Idx) = (ix2 p (band 1024 (by omega) q) : S256x4096.Idx) :=
    funext fun a => by match a with | ⟨0, _⟩ => rfl | ⟨1, _⟩ => rfl
  have i4 : ix5_4 (ix2 p q : S256x1024.Idx) = (ix2 p (band 2048 (by omega) q) : S256x4096.Idx) :=
    funext fun a => by match a with | ⟨0, _⟩ => rfl | ⟨1, _⟩ => rfl
  show FloatOps.mulf (FloatOps.mulf (Scalar.ofBits .f32 0x3F000000#32) (FloatOps.addf (FloatOps.tanh (FloatOps.mulf (Scalar.ofBits .f32 0x3F000000#32) (k0_pay2 (F := Ideal) (xblk m c t) (hblk m c t) (wblk m c t) (bblk m c t) (ix5_0 (ix2 p q))))) (Scalar.ofBits .f32 0x3F800000#32)))
      (FloatOps.tanh (FloatOps.addf (FloatOps.mulf (FloatOps.mulf (Scalar.ofBits .f32 0x3F000000#32) (FloatOps.addf (FloatOps.tanh (FloatOps.mulf (Scalar.ofBits .f32 0x3F000000#32) (k0_pay2 (F := Ideal) (xblk m c t) (hblk m c t) (wblk m c t) (bblk m c t) (ix5_1 (ix2 p q))))) (Scalar.ofBits .f32 0x3F800000#32))) (cblk m c t (ix5_2 (ix2 p q))))
        (FloatOps.mulf (FloatOps.mulf (Scalar.ofBits .f32 0x3F000000#32) (FloatOps.addf (FloatOps.tanh (FloatOps.mulf (Scalar.ofBits .f32 0x3F000000#32) (k0_pay2 (F := Ideal) (xblk m c t) (hblk m c t) (wblk m c t) (bblk m c t) (ix5_3 (ix2 p q))))) (Scalar.ofBits .f32 0x3F800000#32))) (FloatOps.tanh (k0_pay2 (F := Ideal) (xblk m c t) (hblk m c t) (wblk m c t) (bblk m c t) (ix5_4 (ix2 p q))))))) = _
  rw [i0, i1, i2, i3, i4, gate_blk, gate_blk, gate_blk, gate_blk, cblk_apply]
  simp only [Ideal.addf_def, Ideal.mulf_def, Ideal.tanh_def, Ideal.ofBits_def, ofBits_half, ofBits_one]
  rw [cell_of_tanh]
  exact hid_of_tanh _ _

/-! ## From the blocks to the arrays -/

theorem hz : (![0, 0] : Fin 2 → Nat) = fun _ => 0 := funext fun a => by fin_cases a <;> rfl

/-- The new cell array, as a buffer of the cell output's array. -/
abbrev cTbuf (c : Dev nD) : S4096x1024.Idx → EReal :=
  cT (xarr m c) (harr m c) (carr m c) (wiarr m c) (wharr m c) (barr m c)
/-- The new hidden array, as a buffer of the hidden output's array. -/
abbrev hTbuf (c : Dev nD) : S4096x1024.Idx → EReal :=
  hT (xarr m c) (harr m c) (carr m c) (wiarr m c) (wharr m c) (barr m c)

/-- What point `t` writes back to the cell output is block `t` of `cT`. -/
theorem flushed6_eq (c : Dev nD) (t : Fin cfg0.N) :
    (dats m 0 c).flushed 6 t = ((cfg0.win 6).blk t).view.read (Elt Ideal) (cTbuf m c) := by
  obtain ⟨-, -, -, -, -, -, -, -, -, -, -, -, e0, e1⟩ := idx_rows t
  rw [flushed6]
  funext j
  obtain ⟨p, q, rfl⟩ : ∃ (p : Fin 256) (q : Fin 1024), j = ix2 p q := ⟨j 0, j 1, eq_ix2 j⟩
  show out0_6 (iblk m c 0 t) (iblk m c 1 t) (iblk m c 2 t) (iblk m c 3 t) (iblk m c 4 t) (ix2 p q) = cTbuf m c (((cfg0.win 6).blk t).view.emb (ix2 p q))
  unfold out0_6
  rw [canon6_eq]
  simp only [View.ld_unit_zero (S := S256x1024) hz, View.ld_unit_zero (S := S2048x4096) hz, View.ld_unit_zero (S := S1x4096) hz]
  refine (cell_blk m c t p q).trans ?_
  congr 1
  funext a
  apply Fin.ext
  match a with
  | ⟨0, _⟩ => show 256 * t.val + p.val = win0_6.index t 0 * 256 + 1 * p.val; rw [e0]; omega
  | ⟨1, _⟩ => show q.val = win0_6.index t 1 * 1024 + 1 * q.val; rw [e1]; omega

/-- What point `t` writes back to the hidden output is block `t` of `hT`. -/
theorem flushed5_eq (c : Dev nD) (t : Fin cfg0.N) :
    (dats m 0 c).flushed 5 t = ((cfg0.win 5).blk t).view.read (Elt Ideal) (hTbuf m c) := by
  obtain ⟨-, -, -, -, -, -, -, -, -, -, e0, e1, -⟩ := idx_rows t
  rw [flushed5]
  funext j
  obtain ⟨p, q, rfl⟩ : ∃ (p : Fin 256) (q : Fin 1024), j = ix2 p q := ⟨j 0, j 1, eq_ix2 j⟩
  show out0_5 (iblk m c 0 t) (iblk m c 1 t) (iblk m c 2 t) (iblk m c 3 t) (iblk m c 4 t) (ix2 p q) = hTbuf m c (((cfg0.win 5).blk t).view.emb (ix2 p q))
  unfold out0_5
  rw [canon5_eq]
  simp only [View.ld_unit_zero (S := S256x1024) hz, View.ld_unit_zero (S := S2048x4096) hz, View.ld_unit_zero (S := S1x4096) hz]
  refine (hid_blk m c t p q).trans ?_
  congr 1
  funext a
  apply Fin.ext
  match a with
  | ⟨0, _⟩ => show 256 * t.val + p.val = win0_5.index t 0 * 256 + 1 * p.val; rw [e0]; omega
  | ⟨1, _⟩ => show q.val = win0_5.index t 1 * 1024 + 1 * q.val; rw [e1]; omega

/-- Every block index is some point's: batch row `r` lies in point `r / 256`'s block. -/
theorem point_of_row : ∀ b : Fin 16, ∃ t : Fin cfg0.N, t.val = b.val :=
  (by decide +kernel : ∀ b : Fin 16, ∃ t : Fin grid0.N, t.val = b.val)

/-- The 16 blocks tile the cell output's array. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ := point_of_row ⟨(i 0).val / 256, by omega⟩
  have ht' : t.val = (i 0).val / 256 := ht
  obtain ⟨-, -, -, -, -, -, -, -, -, -, -, -, e0, e1⟩ := idx_rows t
  refine ⟨t, flush0_6 t, ?_⟩
  show i ∈ ((View.whole main_v4_1).slice (win0_6.rect t)).set
  rw [View.set_slice_whole, Rect.mem_set_unit]
  intro a
  match a with
  | ⟨0, _⟩ => show win0_6.index t 0 * 256 ≤ (i 0).val ∧ (i 0).val < win0_6.index t 0 * 256 + 256; rw [e0]; omega
  | ⟨1, _⟩ => show win0_6.index t 1 * 1024 ≤ (i 1).val ∧ (i 1).val < win0_6.index t 1 * 1024 + 1024; rw [e1]; omega

/-- The 16 blocks tile the hidden output's array. -/
theorem cover5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ := point_of_row ⟨(i 0).val / 256, by omega⟩
  have ht' : t.val = (i 0).val / 256 := ht
  obtain ⟨-, -, -, -, -, -, -, -, -, -, e0, e1, -⟩ := idx_rows t
  refine ⟨t, flush0_5 t, ?_⟩
  show i ∈ ((View.whole main_v4_0).slice (win0_5.rect t)).set
  rw [View.set_slice_whole, Rect.mem_set_unit]
  intro a
  match a with
  | ⟨0, _⟩ => show win0_5.index t 0 * 256 ≤ (i 0).val ∧ (i 0).val < win0_5.index t 0 * 256 + 256; rw [e0]; omega
  | ⟨1, _⟩ => show win0_5.index t 1 * 1024 ≤ (i 1).val ∧ (i 1).val < win0_5.index t 1 * 1024 + 1024; rw [e1]; omega

/-- After the run the cell output's array is `cT`. -/
theorem final6 (c : Dev nD) : (dats m 0 c).arrAt 6 cfg0.N = cTbuf m c :=
  (dats m 0 c).arrAt_eq_of_cover 6 (cTbuf m c) (fun t _ => flushed6_eq m c t) (cover6)

/-- After the run the hidden output's array is `hT`. -/
theorem final5 (c : Dev nD) : (dats m 0 c).arrAt 5 cfg0.N = hTbuf m c :=
  (dats m 0 c).arrAt_eq_of_cover 5 (hTbuf m c) (fun t _ => flushed5_eq m c t) (cover5)

/-- THE KERNEL'S RUN, read: the two result arrays end at `hT` and `cT` of the argument arrays, the arguments unchanged. -/
theorem run : θ_run defs (onTc (τ := τ) (main (F := Ideal))) ⟨m, fun _ => 0, ρ⟩ fun r => ∀ c : Dev nD,
      r.2.mem ((c : Thread nD τ).loc main_v4_0) = hTbuf m c
      ∧ r.2.mem ((c : Thread nD τ).loc main_v4_1) = cTbuf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c), (h c).2.1.trans (final6 m c), (h c).2.2⟩)
    (run_blocks m ρ)

end Cert.Lstm.Kern

end
-- ==== Proof.RefValue.lean ====
/-
  The reference computes the LSTM cell of Spec.lean.

  Its fused pre-activation `(x · Wi + h · Wh) + bias` is `gate` index by index: each matrix product is a sum over the
  1024 contracted positions, and the bias row is broadcast down the batch.  Its four column slices are the four bands;
  `1 / (1 + e^(-z))` on three of them is `sigm`, and the products and sums that follow are `cell` and `hid`.
-/
import proofs.«406632_j43181601194439_3_alg».proof.Proof.Gen.ReferenceIdeal.Read
import proofs.«406632_j43181601194439_3_alg».proof.Proof.Spec

noncomputable section

namespace Cert.Lstm.Ref

open Cert.ReferenceIdeal Cert.ReferenceIdeal.Gen Cert.ReferenceIdeal.Read Idealize.ShloMosaic Idealize.ShloMosaic.ValueIdx
open Cert.Lstm

variable (x0 x1 x2 : (⟨S4096x1024, .f32⟩ : BufTy).Contents (Elt Ideal))
  (x3 x4 : (⟨S1024x4096, .f32⟩ : BufTy).Contents (Elt Ideal)) (x5 : (⟨S4096, .f32⟩ : BufTy).Contents (Elt Ideal))

/-- The fused pre-activation at an index is `gate` at its row and column. -/
theorem pre_apply (i : S4096x4096.Idx) :
    val_main_v5 (F := Ideal) x0 x1 x3 x4 x5 i = gate x0 x1 x3 x4 x5 (i 0) (i 1) := by
  have l0 : ∀ k : Fin 1024, lidx_main_v0 i k = ix2 (i 0) k := fun k => funext fun a => by
    match a with | ⟨0, _⟩ => rfl | ⟨1, _⟩ => rfl
  have r0 : ∀ k : Fin 1024, ridx_main_v0 i k = ix2 k (i 1) := fun k => funext fun a => by
    match a with | ⟨0, _⟩ => rfl | ⟨1, _⟩ => rfl
  have l1 : ∀ k : Fin 1024, lidx_main_v1 i k = ix2 (i 0) k := fun k => funext fun a => by
    match a with | ⟨0, _⟩ => rfl | ⟨1, _⟩ => rfl
  have r1 : ∀ k : Fin 1024, ridx_main_v1 i k = ix2 k (i 1) := fun k => funext fun a => by
    match a with | ⟨0, _⟩ => rfl | ⟨1, _⟩ => rfl
  have eb : idx_main_v3 (idx_main_v4 i) = ix1 (i 1) := funext fun a => by
    match a with | ⟨0, _⟩ => rfl
  rw [val_main_v5_apply, val_main_v2_apply, val_main_v0_apply, val_main_v1_apply, val_main_v4_apply, val_main_v3_apply]
  simp only [l0, r0, l1, r1, eb, Ideal.addf_def]
  rfl

/-- The forget band. -/
theorem pre_f (i : S4096x1024.Idx) :
    val_main_v6 (F := Ideal) x0 x1 x3 x4 x5 i = gate x0 x1 x3 x4 x5 (i 0) (band 0 (by omega) (i 1)) := by
  rw [val_main_v6_apply, pre_apply]; rfl

/-- The input band. -/
theorem pre_i (i : S4096x1024.Idx) :
    val_main_v7 (F := Ideal) x0 x1 x3 x4 x5 i = gate x0 x1 x3 x4 x5 (i 0) (band 1024 (by omega) (i 1)) := by
  rw [val_main_v7_apply, pre_apply]
  congr 1
  exact Fin.ext (by show 1024 + (i 1).val = (i 1).val + 1024; omega)

/-- The candidate band. -/
theorem pre_c (i : S4096x1024.Idx) :
    val_main_v8 (F := Ideal) x0 x1 x3 x4 x5 i = gate x0 x1 x3 x4 x5 (i 0) (band 2048 (by omega) (i 1)) := by
  rw [val_main_v8_apply, pre_apply]
  congr 1
  exact Fin.ext (by show 2048 + (i 1).val = (i 1).val + 2048; omega)

/-- The output band. -/
theorem pre_o (i : S4096x1024.Idx) :
    val_main_v9 (F := Ideal) x0 x1 x3 x4 x5 i = gate x0 x1 x3 x4 x5 (i 0) (band 3072 (by omega) (i 1)) := by
  rw [val_main_v9_apply, pre_apply]
  congr 1
  exact Fin.ext (by show 3072 + (i 1).val = (i 1).val + 3072; omega)

/-- The forget gate. -/
theorem gate_f (i : S4096x1024.Idx) :
    val_main_v15 (F := Ideal) x0 x1 x3 x4 x5 i = sigm (gate x0 x1 x3 x4 x5 (i 0) (band 0 (by omega) (i 1))) := by
  rw [val_main_v15_apply, val_main_v14_apply, val_main_cst_0_apply, val_main_v13_apply, val_main_v12_apply, val_main_cst_apply,
    val_main_v11_apply, val_main_v10_apply, pre_f]
  simp only [Ideal.hostDivf_def, Ideal.ofBits_def, Ideal.addf_def, Ideal.hostUnary_exp_def, Ideal.hostNegf_def, Ideal.negf_def,
    ofBits_one]
  rfl

/-- The input gate. -/
theorem gate_i (i : S4096x1024.Idx) :
    val_main_v21 (F := Ideal) x0 x1 x3 x4 x5 i = sigm (gate x0 x1 x3 x4 x5 (i 0) (band 1024 (by omega) (i 1))) := by
  rw [val_main_v21_apply, val_main_v20_apply, val_main_cst_2_apply, val_main_v19_apply, val_main_v18_apply, val_main_cst_1_apply,
    val_main_v17_apply, val_main_v16_apply, pre_i]
  simp only [Ideal.hostDivf_def, Ideal.ofBits_def, Ideal.addf_def, Ideal.hostUnary_exp_def, Ideal.hostNegf_def, Ideal.negf_def,
    ofBits_one]
  rfl

/-- The output gate. -/
theorem gate_o (i : S4096x1024.Idx) :
    val_main_v31 (F := Ideal) x0 x1 x3 x4 x5 i = sigm (gate x0 x1 x3 x4 x5 (i 0) (band 3072 (by omega) (i 1))) := by
  rw [val_main_v31_apply, val_main_v30_apply, val_main_cst_4_apply, val_main_v29_apply, val_main_v28_apply, val_main_cst_3_apply,
    val_main_v27_apply, val_main_v26_apply, pre_o]
  simp only [Ideal.hostDivf_def, Ideal.ofBits_def, Ideal.addf_def, Ideal.hostUnary_exp_def, Ideal.hostNegf_def, Ideal.negf_def,
    ofBits_one]
  rfl

/-- The reference's new cell array is `cT`. -/
theorem cell_eq : val_main_v25 (F := Ideal) x0 x1 x2 x3 x4 x5 = cT x0 x1 x2 x3 x4 x5 := by
  funext i
  rw [val_main_v25_apply, val_main_v23_apply, val_main_v24_apply, val_main_v22_apply, gate_f, gate_i, pre_c]
  simp only [Ideal.addf_def, Ideal.mulf_def, Ideal.hostUnary_tanh_def]
  rfl

/-- The reference's new hidden array is `hT`. -/
theorem hid_eq : val_main_v33 (F := Ideal) x0 x1 x2 x3 x4 x5 = hT x0 x1 x2 x3 x4 x5 := by
  funext i
  rw [val_main_v33_apply, val_main_v32_apply, gate_o, cell_eq]
  simp only [Ideal.mulf_def, Ideal.hostUnary_tanh_def]
  rfl

end Cert.Lstm.Ref

end
-- ==== Proof.lean ====
/- An LSTM cell step, one fused kernel against two matrix products.

   The kernel tiles the batch into 16 blocks of 256 rows.  On a block it multiplies `[x | h]` (256 × 2048) by the stacked
   weights `[Wi ; Wh]` (2048 × 4096) in one product, adds the bias, cuts the result into four 1024-wide bands, and forms
       c' = σ(f) · c + σ(i) · tanh(g),    h' = σ(o) · tanh(c'),
   with the logistic function spelt `σ(z) = 1/2 · (tanh(z/2) + 1)`.  The reference forms `x · Wi + h · Wh + bias` with two
   products over the whole batch and spells `σ(z) = 1 / (1 + e^(-z))`.

   On the extended reals the two agree index by index.  A sum over the 2048 stacked positions is the sum over the first
   1024 (the `x`, `Wi` part) plus the sum over the last 1024 (the `h`, `Wh` part): only commutativity and associativity of
   addition, which hold at the infinities too.  The two spellings of `σ` are one function on every extended real
   (Proof/Sigmoid.lean: the real identity, and the limits `0` at `⊥` and `1` at `⊤` on both sides).  Changes of float
   format are the identity.  So the precondition (finite inputs) is never opened.

   Proof/Spec.lean states the cell as one function of the argument arrays (`cT`, `hT`); Proof/RefValue.lean shows the
   reference's results are those; Proof/GateValue.lean reads the kernel's fused pre-activation at an index and
   Proof/KernelValue.lean carries it from the 16 blocks to the arrays.  The ideal pass rewrote nothing, so `preserves`
   has nothing to state. -/
import proofs.«406632_j43181601194439_3_alg».proof.Defs
import proofs.«406632_j43181601194439_3_alg».proof.Proof.Gen.Kernel
import proofs.«406632_j43181601194439_3_alg».proof.Proof.Gen.Kernel.Skeleton
import proofs.«406632_j43181601194439_3_alg».proof.Proof.Gen.Kernel.Launch
import proofs.«406632_j43181601194439_3_alg».proof.Proof.Gen.Kernel.Points
import proofs.«406632_j43181601194439_3_alg».proof.Proof.Gen.Kernel.Frame
import proofs.«406632_j43181601194439_3_alg».proof.Proof.Gen.KernelIdeal
import proofs.«406632_j43181601194439_3_alg».proof.Proof.Gen.KernelIdeal.Skeleton
import proofs.«406632_j43181601194439_3_alg».proof.Proof.Gen.KernelIdeal.Launch
import proofs.«406632_j43181601194439_3_alg».proof.Proof.Gen.KernelIdeal.Points
import proofs.«406632_j43181601194439_3_alg».proof.Proof.Gen.KernelIdeal.Frame
import proofs.«406632_j43181601194439_3_alg».proof.Proof.Gen.ReferenceIdeal
import proofs.«406632_j43181601194439_3_alg».proof.Proof.Gen.KernelIdeal.Value
import proofs.«406632_j43181601194439_3_alg».proof.Proof.Gen.ReferenceIdeal.Run
import proofs.«406632_j43181601194439_3_alg».proof.Proof.Gen.ReferenceIdeal.Read
import proofs.«406632_j43181601194439_3_alg».proof.Proof.Gen.Pre_finite_inputs
import proofs.«406632_j43181601194439_3_alg».proof.Proof.KernelValue
import proofs.«406632_j43181601194439_3_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- At the ideal values both programs end with the hidden array at `hT` and the cell array at `cT` of arguments that
    agree. -/
theorem algebraic : Cert.algebraic_KernelIdeal_ReferenceIdeal := by
  intro m ρ m' ρ' _ hagree
  refine ⟨fun c => Cert.Lstm.Kern.hTbuf m c, fun c => Cert.Lstm.Kern.cTbuf m c, Cert.Lstm.Kern.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5⟩ := hagree c
    rw [Cert.ReferenceIdeal.Read.val_main_v33_eq, Cert.Lstm.Ref.hid_eq, h0, h1, h2, h3, h4, h5]
  · obtain ⟨h0, h1, h2, h3, h4, h5⟩ := hagree c
    rw [Cert.ReferenceIdeal.Read.val_main_v25_eq, Cert.Lstm.Ref.cell_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
